-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 19
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x1024, .bf16⟩
  | .hbm, ⟨12, _⟩ => ⟨S4096x1024, .bf16⟩
  | .hbm, ⟨13, _⟩ => ⟨S2048x4096, .f32⟩
  | .hbm, ⟨14, _⟩ => ⟨S2048x4096, .bf16⟩
  | .hbm, ⟨15, _⟩ => ⟨S4096, .f32⟩
  | .hbm, ⟨16, _⟩ => ⟨S1x4096, .f32⟩
  | .hbm, ⟨17, _⟩ => ⟨S4096x1024, .f32⟩
  | .hbm, ⟨18, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S2048x4096, .f32⟩
  | .hbm, ⟨13, _⟩ => ⟨S4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KernelCellRun.lean ====
/-
  The LSTM cell's pallas_call as a pipeline over 16 grid steps (256 batch rows each), run to its end.

  Before the call the host narrows x and h (a change of float format), lays the four gate weight matrices side by
  side into one [2048, 4096] matrix and narrows it, and lays the four biases end to end into one [1, 4096] row.
  None of these lines writes an argument array. At grid step t the body reads the step's 256 rows of x, h and c,
  the whole weight matrix and the bias row, and stores the new hidden rows and the new cell rows: each output
  block is ONE whole-block store of a value computed from the five blocks read (the payloads `k0_pay3` and
  `k0_pay2`), so after the step each output's staging buffer holds exactly that value. The loads of the output
  buffers that precede the stores read values nobody uses.

  From this: every weakly fair execution terminates, nothing faults, each output array ends as the blocks the
  steps wrote back, and every argument array ends as launched.
-/
import proofs.«140589_j14027363189407_1_alg».proof.Proof.Gen.Kernel.Launch
import proofs.«140589_j14027363189407_1_alg».proof.Proof.Gen.Kernel.Skeleton
import proofs.«140589_j14027363189407_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- Core `c`'s buffers when the call is entered: the launch contents after the six host lines. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is: the six host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the pallas_call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks -/

/-- Window `w`'s block at grid step `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid step, fetched at that step or kept from an
    earlier one (the block index has not moved since). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every grid step, fetched at that step or kept from an
    earlier one (the block index has not moved since). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every grid step, fetched at that step or kept from an
    earlier one (the block index has not moved since). -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every grid step, fetched at that step or kept from an
    earlier one (the block index has not moved since). -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every grid step, fetched at that step or kept from an
    earlier one (the block index has not moved since). -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every array of the pipeline at what the steps left and every other buffer as the call
    found it: the c array is an input window's array, so it is unchanged; no other argument is staged at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What one grid step leaves in the two output buffers -/

abbrev rRows : Rect S256x1024 := Rect.unit (s := S256x1024) ![0, 0] S256x1024.size inb_S256x1024_S256x1024_0_0
abbrev rWeights : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The new hidden rows, from the blocks of x, h, c, the weights and the bias: one whole-block store. -/
def outHid (x0 : Vec F S256x1024 .bf16) (x1 : Vec F S256x1024 .bf16) (x2 : Vec F S256x1024 .f32) (x3 : Vec F S2048x4096 .bf16) (x4 : Vec F S1x4096 .f32) : Vec F S256x1024 .f32 :=
  View.canon [⟨rRows, k0_pay3 (View.ld x0 rRows) (View.ld x1 rRows) (View.ld x3 rWeights) (View.ld x4 rBias) (View.ld x2 rRows)⟩]

/-- The new cell rows, likewise. -/
def outCell (x0 : Vec F S256x1024 .bf16) (x1 : Vec F S256x1024 .bf16) (x2 : Vec F S256x1024 .f32) (x3 : Vec F S2048x4096 .bf16) (x4 : Vec F S1x4096 .f32) : Vec F S256x1024 .f32 :=
  View.canon [⟨rRows, k0_pay2 (View.ld x0 rRows) (View.ld x1 rRows) (View.ld x3 rWeights) (View.ld x4 rBias) (View.ld x2 rRows)⟩]

/-- A whole-block store covers the block. -/
theorem coverRows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the five inputs' at contents `xW` and the two outputs' at anything, ends with
    the inputs' as they were and the outputs' at `outHid` and `outCell` of the inputs'. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S2048x4096 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .bf16) (x1 : Vec F S256x1024 .bf16) (x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outHid x0 x1 x2 x3 x4) ∗ owns (c : Thread nD τ) arg7 fullShare (outCell x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverRows _)
  iexists _; isplitr
  swap; · iexact H6
  ipureintro
  exact View.read_writes_eq_canon _ _ _ (coverRows _)

/-! ## The pipeline's proof data -/

/-- On core `c`: the arrays as the call finds them; after grid step `t` each input's buffer at its block and each
    output's at the value the step stored; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outHid (iblk m c 0 t) (iblk m c 1 t) (iblk m c 2 t) (iblk m c 3 t) (iblk m c 4 t)
    | ⟨6, _⟩ => outCell (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outHid (iblk m c 0 t) (iblk m c 1 t) (iblk m c 2 t) (iblk m c 3 t) (iblk m c 4 t) := by dsimp only [dats]
theorem after0_6 (c : Dev nD) (t : Fin cfg0.N) : (dats m 0 c).after 6 t = outCell (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body at a grid step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end every array of the pipeline holds what the
    grid steps left, and every other buffer what the call found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.CellRun

end
-- ==== Proof.KernelIdealCellRun.lean ====
/-
  The LSTM cell's pallas_call as a pipeline over 16 grid steps (256 batch rows each), run to its end.

  Before the call the host narrows x and h (a change of float format), lays the four gate weight matrices side by
  side into one [2048, 4096] matrix and narrows it, and lays the four biases end to end into one [1, 4096] row.
  None of these lines writes an argument array. At grid step t the body reads the step's 256 rows of x, h and c,
  the whole weight matrix and the bias row, and stores the new hidden rows and the new cell rows: each output
  block is ONE whole-block store of a value computed from the five blocks read (the payloads `k0_pay3` and
  `k0_pay2`), so after the step each output's staging buffer holds exactly that value. The loads of the output
  buffers that precede the stores read values nobody uses.

  From this: every weakly fair execution terminates, nothing faults, each output array ends as the blocks the
  steps wrote back, and every argument array ends as launched.
-/
import proofs.«140589_j14027363189407_1_alg».proof.Proof.Gen.KernelIdeal.Launch
import proofs.«140589_j14027363189407_1_alg».proof.Proof.Gen.KernelIdeal.Skeleton
import proofs.«140589_j14027363189407_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- Core `c`'s buffers when the call is entered: the launch contents after the six host lines. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is: the six host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the pallas_call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the pallas_call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks -/

/-- Window `w`'s block at grid step `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid step, fetched at that step or kept from an
    earlier one (the block index has not moved since). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every grid step, fetched at that step or kept from an
    earlier one (the block index has not moved since). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every grid step, fetched at that step or kept from an
    earlier one (the block index has not moved since). -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every grid step, fetched at that step or kept from an
    earlier one (the block index has not moved since). -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every grid step, fetched at that step or kept from an
    earlier one (the block index has not moved since). -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every array of the pipeline at what the steps left and every other buffer as the call
    found it: the c array is an input window's array, so it is unchanged; no other argument is staged at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What one grid step leaves in the two output buffers -/

abbrev rRows : Rect S256x1024 := Rect.unit (s := S256x1024) ![0, 0] S256x1024.size inb_S256x1024_S256x1024_0_0
abbrev rWeights : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The new hidden rows, from the blocks of x, h, c, the weights and the bias: one whole-block store. -/
def outHid (x0 : Vec F S256x1024 .bf16) (x1 : Vec F S256x1024 .bf16) (x2 : Vec F S256x1024 .f32) (x3 : Vec F S2048x4096 .bf16) (x4 : Vec F S1x4096 .f32) : Vec F S256x1024 .f32 :=
  View.canon [⟨rRows, k0_pay3 (View.ld x0 rRows) (View.ld x1 rRows) (View.ld x3 rWeights) (View.ld x4 rBias) (View.ld x2 rRows)⟩]

/-- The new cell rows, likewise. -/
def outCell (x0 : Vec F S256x1024 .bf16) (x1 : Vec F S256x1024 .bf16) (x2 : Vec F S256x1024 .f32) (x3 : Vec F S2048x4096 .bf16) (x4 : Vec F S1x4096 .f32) : Vec F S256x1024 .f32 :=
  View.canon [⟨rRows, k0_pay2 (View.ld x0 rRows) (View.ld x1 rRows) (View.ld x3 rWeights) (View.ld x4 rBias) (View.ld x2 rRows)⟩]

/-- A whole-block store covers the block. -/
theorem coverRows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the five inputs' at contents `xW` and the two outputs' at anything, ends with
    the inputs' as they were and the outputs' at `outHid` and `outCell` of the inputs'. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S2048x4096 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .bf16) (x1 : Vec F S256x1024 .bf16) (x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outHid x0 x1 x2 x3 x4) ∗ owns (c : Thread nD τ) arg7 fullShare (outCell x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverRows _)
  iexists _; isplitr
  swap; · iexact H6
  ipureintro
  exact View.read_writes_eq_canon _ _ _ (coverRows _)

/-! ## The pipeline's proof data -/

/-- On core `c`: the arrays as the call finds them; after grid step `t` each input's buffer at its block and each
    output's at the value the step stored; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outHid (iblk m c 0 t) (iblk m c 1 t) (iblk m c 2 t) (iblk m c 3 t) (iblk m c 4 t)
    | ⟨6, _⟩ => outCell (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outHid (iblk m c 0 t) (iblk m c 1 t) (iblk m c 2 t) (iblk m c 3 t) (iblk m c 4 t) := by dsimp only [dats]
theorem after0_6 (c : Dev nD) (t : Fin cfg0.N) : (dats m 0 c).after 6 t = outCell (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body at a grid step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end every array of the pipeline holds what the
    grid steps left, and every other buffer what the call found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.CellRun

end
-- ==== Proof.LstmSpec.lean ====
/-
  One LSTM cell step, row by row, over the extended reals.

  For one batch row, write `xh` for the row of x followed by the row of h (2048 entries), `W` for the four gate
  weight matrices laid side by side (2048 × 4096: forget, input, candidate, output, 1024 columns each) and `b` for
  the four biases end to end (4096 entries). The gate pre-activations are `gate n = Σ_k xh k · W k n + b n`, and

    c' j = σ(gate j) · c j + σ(gate (1024 + j)) · tanh(gate (2048 + j)),
    h' j = σ(gate (3072 + j)) · tanh(c' j),

  with σ x = 1 / (1 + e^(−x)). Every batch row is computed from that row of x, h and c alone, which is why a
  program that walks the batch 256 rows at a time and one that takes all 4096 rows at once compute one function.
-/
import Idealize.ShloMosaic.PureOps.Ideal
import Idealize.ShloMosaic.Lib.ValueIdx

noncomputable section

open scoped BigOperators

namespace Cert.LstmSpec

open Idealize.ShloMosaic Idealize.ShloMosaic.ValueIdx

/-- A row of x followed by the same row of h. -/
def joinRow (x h : Fin 1024 → EReal) (k : Fin 2048) : EReal :=
  if hk : k.val < 1024 then x ⟨k.val, hk⟩ else h ⟨k.val - 1024, by have := k.isLt; omega⟩

/-- Gate pre-activation `n` of one batch row. -/
def gate (xh : Fin 2048 → EReal) (W : Fin 2048 → Fin 4096 → EReal) (b : Fin 4096 → EReal) (n : Fin 4096) : EReal :=
  (∑ k : Fin 2048, xh k * W k n) + b n

/-- The new cell state of one batch row at position `j`. -/
def cell (xh : Fin 2048 → EReal) (W : Fin 2048 → Fin 4096 → EReal) (b : Fin 4096 → EReal) (c : Fin 1024 → EReal)
    (j : Fin 1024) : EReal :=
  Ideal.logistic (gate xh W b ⟨j.val, by have := j.isLt; omega⟩) * c j
    + Ideal.logistic (gate xh W b ⟨1024 + j.val, by have := j.isLt; omega⟩)
      * Ideal.tanh (gate xh W b ⟨2048 + j.val, by have := j.isLt; omega⟩)

/-- The new hidden state of one batch row at position `j`. -/
def hidden (xh : Fin 2048 → EReal) (W : Fin 2048 → Fin 4096 → EReal) (b : Fin 4096 → EReal) (c : Fin 1024 → EReal)
    (j : Fin 1024) : EReal :=
  Ideal.logistic (gate xh W b ⟨3072 + j.val, by have := j.isLt; omega⟩) * Ideal.tanh (cell xh W b c j)

/-- The whole new cell array [4096, 1024] from the whole arrays: row `r` from row `r` of x, h, c. -/
def cellArr (x h c : (⟨2, ![4096, 1024]⟩ : Shape).Idx → EReal) (W : (⟨2, ![2048, 4096]⟩ : Shape).Idx → EReal)
    (b : (⟨1, ![4096]⟩ : Shape).Idx → EReal) : (⟨2, ![4096, 1024]⟩ : Shape).Idx → EReal := fun i =>
  cell (joinRow (fun a => x (ix2 (⟨(i 0).val, (i 0).isLt⟩ : Fin 4096) a)) (fun a => h (ix2 (⟨(i 0).val, (i 0).isLt⟩ : Fin 4096) a)))
    (fun k n => W (ix2 k n)) (fun n => b (ix1 n)) (fun a => c (ix2 (⟨(i 0).val, (i 0).isLt⟩ : Fin 4096) a))
    ⟨(i 1).val, (i 1).isLt⟩

/-- The whole new hidden array [4096, 1024], likewise. -/
def hiddenArr (x h c : (⟨2, ![4096, 1024]⟩ : Shape).Idx → EReal) (W : (⟨2, ![2048, 4096]⟩ : Shape).Idx → EReal)
    (b : (⟨1, ![4096]⟩ : Shape).Idx → EReal) : (⟨2, ![4096, 1024]⟩ : Shape).Idx → EReal := fun i =>
  hidden (joinRow (fun a => x (ix2 (⟨(i 0).val, (i 0).isLt⟩ : Fin 4096) a)) (fun a => h (ix2 (⟨(i 0).val, (i 0).isLt⟩ : Fin 4096) a)))
    (fun k n => W (ix2 k n)) (fun n => b (ix1 n)) (fun a => c (ix2 (⟨(i 0).val, (i 0).isLt⟩ : Fin 4096) a))
    ⟨(i 1).val, (i 1).isLt⟩

end Cert.LstmSpec

end
-- ==== Proof.KernelCell.lean ====
/-
  What one grid step of the LSTM kernel stores, read entry by entry: at row `p` of the step's 256 rows and column `j`,
  the stored new cell value is `LstmSpec.cell` and the stored new hidden value is `LstmSpec.hidden` of that row of
  the x, h and c blocks, the weight matrix and the bias row.
-/
import proofs.«140589_j14027363189407_1_alg».proof.Proof.Gen.KernelIdeal.Skeleton
import proofs.«140589_j14027363189407_1_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.CellValue

open Cert.KernelIdeal Cert.KernelIdeal.Gen Idealize.ShloMosaic Idealize.ShloMosaic.TcCoe Idealize.ShloMosaic.ValueIdx Cert.LstmSpec

/-! ### The matmul's operand indices

The kernel's matmul contracts axis 1 of its left operand with axis 0 of its right operand; at output index
`(r, c)` and contraction coordinate `k` the operands are read at `(r, k)` and `(k, c)`. -/

private theorem lhs_mm_0 (i : S256x4096.Idx) (q : dot_S256x2048_S2048x4096_S256x4096_1_0_0_1_n_n.contr.Idx) :
    (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
private theorem lhs_mm_1 (i : S256x4096.Idx) (q : dot_S256x2048_S2048x4096_S256x4096_1_0_0_1_n_n.contr.Idx) :
    (dot_S256x2048_S2048x4096_S256x4096_1_0_0_1_n_n.lhsIdx i q 1).val = (q ⟨0, by decide⟩).val :=
  dot_S256x2048_S2048x4096_S256x4096_1_0_0_1_n_n.lhsIdx_val_of_single rfl i q
private theorem rhs_mm_0 (i : S256x4096.Idx) (q : dot_S256x2048_S2048x4096_S256x4096_1_0_0_1_n_n.contr.Idx) :
    (dot_S256x2048_S2048x4096_S256x4096_1_0_0_1_n_n.rhsIdx i q 0).val = (q ⟨0, by decide⟩).val :=
  dot_S256x2048_S2048x4096_S256x4096_1_0_0_1_n_n.rhsIdx_val_of_single rfl i q
private theorem rhs_mm_1 (i : S256x4096.Idx) (q : dot_S256x2048_S2048x4096_S256x4096_1_0_0_1_n_n.contr.Idx) :
    (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- The matmul into a zero accumulator, read at `(p, n)`: the plain sum over the 2048 contraction positions. -/
private theorem matmul_at (A : FVec Ideal S256x2048 .bf16) (B : FVec Ideal S2048x4096 .bf16) (p : Fin 256) (n : Fin 4096) :
    matmul dot_S256x2048_S2048x4096_S256x4096_1_0_0_1_n_n none A B (constant (F := Ideal) S256x4096 .f32 0x00000000#32) (ix2 p n)
      = ∑ k : Fin 2048, A (ix2 p k) * B (ix2 k n) := by
  refine (Ideal.matmul_constant_zero_apply dot_S256x2048_S2048x4096_S256x4096_1_0_0_1_n_n none A B (ix2 p n)).trans ?_
  rw [← Equiv.sum_comp (ValueIdx.contrEquiv1 dot_S256x2048_S2048x4096_S256x4096_1_0_0_1_n_n 2048 rfl rfl).symm]
  refine Finset.sum_congr rfl fun k _ => ?_
  have hk := ValueIdx.contrEquiv1_symm_val dot_S256x2048_S2048x4096_S256x4096_1_0_0_1_n_n 2048 rfl rfl k
  have el : dot_S256x2048_S2048x4096_S256x4096_1_0_0_1_n_n.lhsIdx (ix2 p n) ((ValueIdx.contrEquiv1 dot_S256x2048_S2048x4096_S256x4096_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S256x2048_S2048x4096_S256x4096_1_0_0_1_n_n.rhsIdx (ix2 p n) ((ValueIdx.contrEquiv1 dot_S256x2048_S2048x4096_S256x4096_1_0_0_1_n_n 2048 rfl rfl).symm k) = ix2 k n := funext fun a => Fin.ext (by
    match a with
    | ⟨0, _⟩ => exact (rhs_mm_0 _ _).trans hk
    | ⟨1, _⟩ => exact rhs_mm_1 _ _)
  rw [el, er]

/-- The x block and the h block laid side by side, read at `(p, k)`: row `p` of x followed by row `p` of h. -/
private theorem join_at (xb hb : Vec Ideal S256x1024 .bf16) (p : Fin 256) (k : Fin 2048) :
    concatenate S256x2048 1 [⟨S256x1024, xb⟩, ⟨S256x1024, hb⟩] concatenates_S256x1024_S256x1024_S256x2048_d1 (ix2 p k)
      = joinRow (fun a => xb (ix2 p a)) (fun a => hb (ix2 p a)) k := by
  unfold joinRow
  by_cases hk : k.val < 1024
  · rw [dif_pos hk]
    exact concatenate_pair_apply_left (1 : Fin S256x2048.rank) xb hb _ (ix2 p k) rfl (ix2 p ⟨k.val, hk⟩)
      (fun b => match b with | ⟨0, _⟩ => rfl | ⟨1, _⟩ => rfl)
  · rw [dif_neg hk]
    exact concatenate_pair_apply_right (1 : Fin S256x2048.rank) xb hb _ (ix2 p k) rfl rfl
      (ix2 p ⟨k.val - 1024, by have := k.isLt; omega⟩)
      (fun b hb => match b, hb with | ⟨0, _⟩, _ => rfl | ⟨1, _⟩, h => absurd rfl h)
      (by show (k.val - 1024) + 1024 = k.val; omega)

/-- The gate pre-activations the kernel computes, read at `(p, n)`: the row's 2048 entries against column `n` of the
    weights, plus the bias. -/
private theorem pay_gate (xb hb : Vec Ideal S256x1024 .bf16) (W : Vec Ideal S2048x4096 .bf16) (bb : Vec Ideal S1x4096 .f32)
    (p : Fin 256) (n : Fin 4096) :
    k0_pay1 (F := Ideal) xb hb W bb (ix2 p n)
      = gate (joinRow (fun a => xb (ix2 p a)) (fun a => hb (ix2 p a))) (fun k n => W (ix2 k n))
          (fun n => bb (ix2 (0 : Fin 1) n)) n := by
  unfold k0_pay1 gate
  simp only [shapeCast_self]
  refine (addf_apply _ _ (ix2 p n)).trans ?_
  rw [matmul_at, broadcastTo_1b_ab_apply]
  refine congrArg (· + bb (ix2 (0 : Fin 1) n)) (Finset.sum_congr rfl fun k _ => ?_)
  rw [join_at, shapeCast_self, shapeCast_self]

/-- A 1024-column slice of the gate pre-activations from column `o`, read at `(p, j)`: gate `o + j` of row `p`. -/
private theorem slice_gate (o : Nat) (h : S256x4096.Slices ![0, o] S256x1024)
    (xb hb : Vec Ideal S256x1024 .bf16) (W : Vec Ideal S2048x4096 .bf16) (bb : Vec Ideal S1x4096 .f32)
    (p : Fin 256) (j : Fin 1024) (n : Fin 4096) (hn : n.val = o + j.val) :
    extractStridedSlice S256x1024 ![0, o] (k0_pay1 (F := Ideal) xb hb W bb) h (ix2 p j)
      = gate (joinRow (fun a => xb (ix2 p a)) (fun a => hb (ix2 p a))) (fun k n => W (ix2 k n))
          (fun n => bb (ix2 (0 : Fin 1) n)) n :=
  (slice2_axis1_apply o (k0_pay1 (F := Ideal) xb hb W bb) h p j n hn).trans (pay_gate xb hb W bb p n)

theorem pay_cell (xb hb : Vec Ideal S256x1024 .bf16) (W : Vec Ideal S2048x4096 .bf16) (bb : Vec Ideal S1x4096 .f32)
    (cb : Vec Ideal S256x1024 .f32) (p : Fin 256) (j : Fin 1024) :
    k0_pay2 (F := Ideal) xb hb W bb cb (ix2 p j)
      = cell (joinRow (fun a => xb (ix2 p a)) (fun a => hb (ix2 p a))) (fun k n => W (ix2 k n))
          (fun n => bb (ix2 (0 : Fin 1) n)) (fun a => cb (ix2 p a)) j := by
  have e0 := slice_gate 0 slices_S256x4096_o0_0_S256x1024 xb hb W bb p j
    ⟨j.val, by have := j.isLt; omega⟩ (Nat.zero_add _).symm
  have e1 := slice_gate 1024 slices_S256x4096_o0_1024_S256x1024 xb hb W bb p j
    ⟨1024 + j.val, by have := j.isLt; omega⟩ rfl
  have e2 := slice_gate 2048 slices_S256x4096_o0_2048_S256x1024 xb hb W bb p j
    ⟨2048 + j.val, by have := j.isLt; omega⟩ rfl
  unfold k0_pay2 cell
  rw [← e0, ← e1, ← e2]
  rfl

theorem pay_hidden (xb hb : Vec Ideal S256x1024 .bf16) (W : Vec Ideal S2048x4096 .bf16) (bb : Vec Ideal S1x4096 .f32)
    (cb : Vec Ideal S256x1024 .f32) (p : Fin 256) (j : Fin 1024) :
    k0_pay3 (F := Ideal) xb hb W bb cb (ix2 p j)
      = hidden (joinRow (fun a => xb (ix2 p a)) (fun a => hb (ix2 p a))) (fun k n => W (ix2 k n))
          (fun n => bb (ix2 (0 : Fin 1) n)) (fun a => cb (ix2 p a)) j := by
  have e3 := slice_gate 3072 slices_S256x4096_o0_3072_S256x1024 xb hb W bb p j
    ⟨3072 + j.val, by have := j.isLt; omega⟩ rfl
  unfold k0_pay3 Cert.LstmSpec.hidden
  rw [← e3, ← pay_cell xb hb W bb cb p j]
  rfl

end Cert.KernelIdeal.CellValue

end
-- ==== Proof.KernelIdealArrays.lean ====
/-
  The LSTM kernel's two result arrays after the run, as functions of the argument arrays.

  At the ideal instance the host lines before the call change nothing but the layout: narrowing x, h and the weights
  is the identity, so the call finds x and h themselves, the four weight matrices laid side by side, and the four
  biases end to end as one row. Grid step t reads rows 256·t … 256·t + 255 of x, h and c, and the whole weight matrix
  and bias row; what it stores at row p, column j is the LSTM step (`LstmSpec.cell`, `LstmSpec.hidden`) of row
  256·t + p. The sixteen row blocks tile the [4096, 1024] arrays (row r lies in block r / 256), so each result array
  ends as `LstmSpec.cellArr` / `LstmSpec.hiddenArr` of the arguments.
-/
import proofs.«140589_j14027363189407_1_alg».proof.Proof.KernelIdealCellRun
import proofs.«140589_j14027363189407_1_alg».proof.Proof.KernelCell
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CellArrays

open Cert.KernelIdeal Cert.KernelIdeal.Gen Cert.KernelIdeal.CellRun Cert.KernelIdeal.CellValue Cert.LstmSpec
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- Decided over the sixteen grid steps: the x, h, c and result windows are at row block t, the weight and bias windows
    do not move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 16 := Nat.lt_of_lt_of_eq t.isLt (show cfg0.N = 16 from N_0)

/-! ## What the call finds -/

/-- The four weight matrices laid side by side. -/
abbrev Wcat (c : Dev nD) : S2048x4096.Idx → EReal :=
  concatenate S2048x4096 1 [⟨S2048x1024, m ((c : Thread nD τ).loc main_arg3)⟩, ⟨S2048x1024, m ((c : Thread nD τ).loc main_arg5)⟩, ⟨S2048x1024, m ((c : Thread nD τ).loc main_arg7)⟩, ⟨S2048x1024, m ((c : Thread nD τ).loc main_arg9)⟩] concatenates_S2048x1024_S2048x1024_S2048x1024_S2048x1024_S2048x4096_d1

/-- The four biases end to end. -/
abbrev bcat (c : Dev nD) : S4096.Idx → EReal :=
  concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0

theorem V_x (c : Dev nD) : (V m c main_v0 : S4096x1024.Idx → EReal) = (m ((c : Thread nD τ).loc main_arg0) : S4096x1024.Idx → EReal) := by
  dsimp only [V]
  simp only [hostOps0, List.flatten_cons, List.flatten_nil, List.append_nil, List.cons_append, List.nil_append]
  after_results
  rfl

theorem V_h (c : Dev nD) : (V m c main_v1 : S4096x1024.Idx → EReal) = (m ((c : Thread nD τ).loc main_arg1) : S4096x1024.Idx → EReal) := by
  dsimp only [V]
  simp only [hostOps0, List.flatten_cons, List.flatten_nil, List.append_nil, List.cons_append, List.nil_append]
  after_results
  rfl

theorem V_W (c : Dev nD) : (V m c main_v3 : S2048x4096.Idx → EReal) = Wcat m c := by
  dsimp only [V]
  simp only [hostOps0, List.flatten_cons, List.flatten_nil, List.append_nil, List.cons_append, List.nil_append]
  after_results
  rfl

theorem V_b (c : Dev nD) : (V m c main_v5 : S1x4096.Idx → EReal) = shapeCast S1x4096 (bcat m c) shapeCasts_S4096_S1x4096 := by
  dsimp only [V]
  simp only [hostOps0, List.flatten_cons, List.flatten_nil, List.append_nil, List.cons_append, List.nil_append]
  after_results
  rfl

/-! ## The blocks a grid step reads -/

/-- Rows 256·t … 256·t + 255 of x. -/
theorem xblk_apply (c : Dev nD) (t : Fin cfg0.N) (p : Fin 256) (a : Fin 1024) :
    (iblk m c 0 t : S256x1024.Idx → EReal) (ix2 p a)
      = (m ((c : Thread nD τ).loc main_arg0) : S4096x1024.Idx → EReal) (ix2 (⟨256 * t.val + p.val, by have := t_lt t; have := p.isLt; omega⟩ : Fin 4096) a) := by
  have e0 : win0_0.index t (0 : Fin 2) = t.val := by have := idx_facts t; tauto
  have e1 : win0_0.index t (1 : Fin 2) = 0 := by have := idx_facts t; tauto
  unfold iblk
  rw [View.read_apply]
  show (V m c main_v0 : S4096x1024.Idx → EReal) _ = _
  rw [V_x]
  congr 1
  funext d
  apply Fin.ext
  match d with
  | ⟨0, _⟩ => show win0_0.index t 0 * 256 + 1 * p.val = 256 * t.val + p.val; rw [e0]; omega
  | ⟨1, _⟩ => show win0_0.index t 1 * 1024 + 1 * a.val = a.val; rw [e1]; omega

/-- The same rows of h. -/
theorem hblk_apply (c : Dev nD) (t : Fin cfg0.N) (p : Fin 256) (a : Fin 1024) :
    (iblk m c 1 t : S256x1024.Idx → EReal) (ix2 p a)
      = (m ((c : Thread nD τ).loc main_arg1) : S4096x1024.Idx → EReal) (ix2 (⟨256 * t.val + p.val, by have := t_lt t; have := p.isLt; omega⟩ : Fin 4096) a) := by
  have e0 : win0_1.index t (0 : Fin 2) = t.val := by have := idx_facts t; tauto
  have e1 : win0_1.index t (1 : Fin 2) = 0 := by have := idx_facts t; tauto
  unfold iblk
  rw [View.read_apply]
  show (V m c main_v1 : S4096x1024.Idx → EReal) _ = _
  rw [V_h]
  congr 1
  funext d
  apply Fin.ext
  match d with
  | ⟨0, _⟩ => show win0_1.index t 0 * 256 + 1 * p.val = 256 * t.val + p.val; rw [e0]; omega
  | ⟨1, _⟩ => show win0_1.index t 1 * 1024 + 1 * a.val = a.val; rw [e1]; omega

/-- The same rows of c. -/
theorem cblk_apply (c : Dev nD) (t : Fin cfg0.N) (p : Fin 256) (a : Fin 1024) :
    (iblk m c 2 t : S256x1024.Idx → EReal) (ix2 p a)
      = (m ((c : Thread nD τ).loc main_arg2) : S4096x1024.Idx → EReal) (ix2 (⟨256 * t.val + p.val, by have := t_lt t; have := p.isLt; omega⟩ : Fin 4096) a) := by
  have e0 : win0_2.index t (0 : Fin 2) = t.val := by have := idx_facts t; tauto
  have e1 : win0_2.index t (1 : Fin 2) = 0 := by have := idx_facts t; tauto
  unfold iblk
  rw [View.read_apply]
  show (V m c main_arg2 : S4096x1024.Idx → EReal) _ = _
  rw [V_main_arg2]
  congr 1
  funext d
  apply Fin.ext
  match d with
  | ⟨0, _⟩ => show win0_2.index t 0 * 256 + 1 * p.val = 256 * t.val + p.val; rw [e0]; omega
  | ⟨1, _⟩ => show win0_2.index t 1 * 1024 + 1 * a.val = a.val; rw [e1]; omega

/-- The weight window is the whole side-by-side matrix at every step. -/
theorem wblk_apply (c : Dev nD) (t : Fin cfg0.N) (k : Fin 2048) (n : Fin 4096) :
    (iblk m c 3 t : S2048x4096.Idx → EReal) (ix2 k n) = Wcat m c (ix2 k n) := by
  have e0 : win0_3.index t (0 : Fin 2) = 0 := by have := idx_facts t; tauto
  have e1 : win0_3.index t (1 : Fin 2) = 0 := by have := idx_facts t; tauto
  unfold iblk
  rw [View.read_apply]
  show (V m c main_v3 : S2048x4096.Idx → EReal) _ = _
  rw [V_W]
  congr 1
  funext d
  apply Fin.ext
  match d with
  | ⟨0, _⟩ => show win0_3.index t 0 * 2048 + 1 * k.val = k.val; rw [e0]; omega
  | ⟨1, _⟩ => show win0_3.index t 1 * 4096 + 1 * n.val = n.val; rw [e1]; omega

/-- The bias window is the whole row of biases at every step; entry n of the row is entry n of the biases end to end. -/
theorem bblk_apply (c : Dev nD) (t : Fin cfg0.N) (n : Fin 4096) :
    (iblk m c 4 t : S1x4096.Idx → EReal) (ix2 (0 : Fin 1) n) = bcat m c (ix1 n) := by
  have e0 : win0_4.index t (0 : Fin 2) = 0 := by have := idx_facts t; tauto
  have e1 : win0_4.index t (1 : Fin 2) = 0 := by have := idx_facts t; tauto
  unfold iblk
  rw [View.read_apply]
  show (V m c main_v5 : S1x4096.Idx → EReal) _ = _
  rw [V_b]
  refine (shapeCast_apply _ _ _ (ix1 n) ?_).trans rfl
  rw [Shape.rowMajor_val_two, Shape.rowMajor_val_one]
  show n.val = (win0_4.index t 0 * 1 + 1 * 0) * 4096 + (win0_4.index t 1 * 4096 + 1 * n.val)
  rw [e0, e1]; omega

/-! ## One grid step's stores, as rows of the whole result -/

/-- If the blocks handed to the body are rows r0 … r0 + 255 of x, h, c, the weights and the biases, the stored new
    hidden value at row p is the LSTM step's at row r0 + p. -/
theorem hidden_rows (xb hb : Vec Ideal S256x1024 .bf16) (Wb : Vec Ideal S2048x4096 .bf16) (bb : Vec Ideal S1x4096 .f32)
    (cb : Vec Ideal S256x1024 .f32) (x h cc : S4096x1024.Idx → EReal) (Wc : S2048x4096.Idx → EReal) (bc : S4096.Idx → EReal)
    (r0 : Nat) (hr0 : r0 + 256 ≤ 4096)
    (hx : ∀ (p : Fin 256) (a : Fin 1024), xb (ix2 p a) = x (ix2 (⟨r0 + p.val, by have := p.isLt; omega⟩ : Fin 4096) a))
    (hh : ∀ (p : Fin 256) (a : Fin 1024), hb (ix2 p a) = h (ix2 (⟨r0 + p.val, by have := p.isLt; omega⟩ : Fin 4096) a))
    (hc : ∀ (p : Fin 256) (a : Fin 1024), cb (ix2 p a) = cc (ix2 (⟨r0 + p.val, by have := p.isLt; omega⟩ : Fin 4096) a))
    (hW : ∀ (k : Fin 2048) (n : Fin 4096), Wb (ix2 k n) = Wc (ix2 k n))
    (hb' : ∀ n : Fin 4096, bb (ix2 (0 : Fin 1) n) = bc (ix1 n)) (p : Fin 256) (j : Fin 1024) :
    k0_pay3 (F := Ideal) xb hb Wb bb cb (ix2 p j)
      = hiddenArr x h cc Wc bc (ix2 (⟨r0 + p.val, by have := p.isLt; omega⟩ : Fin 4096) j) := by
  rw [pay_hidden]
  show hidden _ _ _ _ j = hidden (joinRow (fun a => x (ix2 (⟨r0 + p.val, _⟩ : Fin 4096) a)) (fun a => h (ix2 (⟨r0 + p.val, _⟩ : Fin 4096) a)))
    (fun k n => Wc (ix2 k n)) (fun n => bc (ix1 n)) (fun a => cc (ix2 (⟨r0 + p.val, _⟩ : Fin 4096) a)) j
  simp only [hx, hh, hc, hW, hb']

/-- The same for the stored new cell value. -/
theorem cell_rows (xb hb : Vec Ideal S256x1024 .bf16) (Wb : Vec Ideal S2048x4096 .bf16) (bb : Vec Ideal S1x4096 .f32)
    (cb : Vec Ideal S256x1024 .f32) (x h cc : S4096x1024.Idx → EReal) (Wc : S2048x4096.Idx → EReal) (bc : S4096.Idx → EReal)
    (r0 : Nat) (hr0 : r0 + 256 ≤ 4096)
    (hx : ∀ (p : Fin 256) (a : Fin 1024), xb (ix2 p a) = x (ix2 (⟨r0 + p.val, by have := p.isLt; omega⟩ : Fin 4096) a))
    (hh : ∀ (p : Fin 256) (a : Fin 1024), hb (ix2 p a) = h (ix2 (⟨r0 + p.val, by have := p.isLt; omega⟩ : Fin 4096) a))
    (hc : ∀ (p : Fin 256) (a : Fin 1024), cb (ix2 p a) = cc (ix2 (⟨r0 + p.val, by have := p.isLt; omega⟩ : Fin 4096) a))
    (hW : ∀ (k : Fin 2048) (n : Fin 4096), Wb (ix2 k n) = Wc (ix2 k n))
    (hb' : ∀ n : Fin 4096, bb (ix2 (0 : Fin 1) n) = bc (ix1 n)) (p : Fin 256) (j : Fin 1024) :
    k0_pay2 (F := Ideal) xb hb Wb bb cb (ix2 p j)
      = cellArr x h cc Wc bc (ix2 (⟨r0 + p.val, by have := p.isLt; omega⟩ : Fin 4096) j) := by
  rw [pay_cell]
  show cell _ _ _ _ j = cell (joinRow (fun a => x (ix2 (⟨r0 + p.val, _⟩ : Fin 4096) a)) (fun a => h (ix2 (⟨r0 + p.val, _⟩ : Fin 4096) a)))
    (fun k n => Wc (ix2 k n)) (fun n => bc (ix1 n)) (fun a => cc (ix2 (⟨r0 + p.val, _⟩ : Fin 4096) a)) j
  simp only [hx, hh, hc, hW, hb']

/-! ## What each grid step writes back -/

/-- The new hidden array, of the arguments as launched. -/
abbrev hidG (c : Dev nD) : S4096x1024.Idx → EReal :=
  hiddenArr (m ((c : Thread nD τ).loc main_arg0)) (m ((c : Thread nD τ).loc main_arg1)) (m ((c : Thread nD τ).loc main_arg2)) (Wcat m c) (bcat m c)

/-- The new cell array, of the arguments as launched. -/
abbrev cellG (c : Dev nD) : S4096x1024.Idx → EReal :=
  cellArr (m ((c : Thread nD τ).loc main_arg0)) (m ((c : Thread nD τ).loc main_arg1)) (m ((c : Thread nD τ).loc main_arg2)) (Wcat m c) (bcat m c)

/-- Grid step t writes back rows 256·t … 256·t + 255 of the new hidden array. -/
theorem flushedHid_eq (c : Dev nD) (t : Fin cfg0.N) :
    (dats m 0 c).flushed 5 t = ((cfg0.win 5).blk t).view.read (Elt Ideal) (hidG m c) := by
  have e0 : win0_5.index t (0 : Fin 2) = t.val := by have := idx_facts t; tauto
  have e1 : win0_5.index t (1 : Fin 2) = 0 := by have := idx_facts t; tauto
  show (cfg0.win 5).cut (grid0.coords t) ((dats m 0 c).after 5 t) = _
  rw [after0_5]
  unfold outHid
  rw [View.canon_unit_zero hz]
  simp only [View.ld_unit_zero (S := S256x1024) hz, View.ld_unit_zero (S := S2048x4096) hz, View.ld_unit_zero (S := S1x4096) hz]
  funext y
  obtain ⟨p, j, rfl⟩ : ∃ (p : Fin 256) (j : Fin 1024), y = ix2 p j := ⟨y 0, y 1, eq_ix2 y⟩
  show k0_pay3 (F := Ideal) (iblk m c 0 t) (iblk m c 1 t) (iblk m c 3 t) (iblk m c 4 t) (iblk m c 2 t) (ix2 p j)
    = hidG m c (((cfg0.win 5).blk t).view.emb (ix2 p j))
  have hemb : ((cfg0.win 5).blk t).view.emb (ix2 p j) = ix2 (⟨256 * t.val + p.val, by have := t_lt t; have := p.isLt; omega⟩ : Fin 4096) j := by
    funext d
    apply Fin.ext
    match d with
    | ⟨0, _⟩ => show win0_5.index t 0 * 256 + 1 * p.val = 256 * t.val + p.val; rw [e0]; omega
    | ⟨1, _⟩ => show win0_5.index t 1 * 1024 + 1 * j.val = j.val; rw [e1]; omega
  rw [hemb]
  exact hidden_rows (iblk m c 0 t) (iblk m c 1 t) (iblk m c 3 t) (iblk m c 4 t) (iblk m c 2 t) _ _ _ _ _ (256 * t.val)
    (by have := t_lt t; omega) (xblk_apply m c t) (hblk_apply m c t) (cblk_apply m c t) (wblk_apply m c t) (bblk_apply m c t) p j

/-- Grid step t writes back rows 256·t … 256·t + 255 of the new cell array. -/
theorem flushedCell_eq (c : Dev nD) (t : Fin cfg0.N) :
    (dats m 0 c).flushed 6 t = ((cfg0.win 6).blk t).view.read (Elt Ideal) (cellG m c) := by
  have e0 : win0_6.index t (0 : Fin 2) = t.val := by have := idx_facts t; tauto
  have e1 : win0_6.index t (1 : Fin 2) = 0 := by have := idx_facts t; tauto
  show (cfg0.win 6).cut (grid0.coords t) ((dats m 0 c).after 6 t) = _
  rw [after0_6]
  unfold outCell
  rw [View.canon_unit_zero hz]
  simp only [View.ld_unit_zero (S := S256x1024) hz, View.ld_unit_zero (S := S2048x4096) hz, View.ld_unit_zero (S := S1x4096) hz]
  funext y
  obtain ⟨p, j, rfl⟩ : ∃ (p : Fin 256) (j : Fin 1024), y = ix2 p j := ⟨y 0, y 1, eq_ix2 y⟩
  show k0_pay2 (F := Ideal) (iblk m c 0 t) (iblk m c 1 t) (iblk m c 3 t) (iblk m c 4 t) (iblk m c 2 t) (ix2 p j)
    = cellG m c (((cfg0.win 6).blk t).view.emb (ix2 p j))
  have hemb : ((cfg0.win 6).blk t).view.emb (ix2 p j) = ix2 (⟨256 * t.val + p.val, by have := t_lt t; have := p.isLt; omega⟩ : Fin 4096) j := by
    funext d
    apply Fin.ext
    match d with
    | ⟨0, _⟩ => show win0_6.index t 0 * 256 + 1 * p.val = 256 * t.val + p.val; rw [e0]; omega
    | ⟨1, _⟩ => show win0_6.index t 1 * 1024 + 1 * j.val = j.val; rw [e1]; omega
  rw [hemb]
  exact cell_rows (iblk m c 0 t) (iblk m c 1 t) (iblk m c 3 t) (iblk m c 4 t) (iblk m c 2 t) _ _ _ _ _ (256 * t.val)
    (by have := t_lt t; omega) (xblk_apply m c t) (hblk_apply m c t) (cblk_apply m c t) (wblk_apply m c t) (bblk_apply m c t) p j

/-! ## The sixteen row blocks tile the result arrays -/

/-- Row r lies in the block of grid step r / 256. -/
theorem coverHid (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  let t : Fin cfg0.N := ⟨(i 0).val / 256, by rw [show cfg0.N = 16 from N_0]; omega⟩
  have e0 : win0_5.index t (0 : Fin 2) = (i 0).val / 256 := by have := idx_facts t; tauto
  have e1 : win0_5.index t (1 : Fin 2) = 0 := by have := idx_facts t; tauto
  refine ⟨t, flush0_5 t, ?_⟩
  show i ∈ ((View.whole main_v6_0).slice (win0_5.rect t)).set
  rw [View.set_slice_whole, Rect.mem_set_unit]
  intro a
  match a with
  | ⟨0, _⟩ => show win0_5.index t 0 * 256 ≤ (i 0).val ∧ (i 0).val < win0_5.index t 0 * 256 + 256; rw [e0]; omega
  | ⟨1, _⟩ => show win0_5.index t 1 * 1024 ≤ (i 1).val ∧ (i 1).val < win0_5.index t 1 * 1024 + 1024; rw [e1]; omega

theorem coverCell (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 256, by rw [show cfg0.N = 16 from N_0]; omega⟩
  have e0 : win0_6.index t (0 : Fin 2) = (i 0).val / 256 := by have := idx_facts t; tauto
  have e1 : win0_6.index t (1 : Fin 2) = 0 := by have := idx_facts t; tauto
  refine ⟨t, flush0_6 t, ?_⟩
  show i ∈ ((View.whole main_v6_1).slice (win0_6.rect t)).set
  rw [View.set_slice_whole, Rect.mem_set_unit]
  intro a
  match a with
  | ⟨0, _⟩ => show win0_6.index t 0 * 256 ≤ (i 0).val ∧ (i 0).val < win0_6.index t 0 * 256 + 256; rw [e0]; omega
  | ⟨1, _⟩ => show win0_6.index t 1 * 1024 ≤ (i 1).val ∧ (i 1).val < win0_6.index t 1 * 1024 + 1024; rw [e1]; omega

/-- So the two result arrays end as the LSTM step of the arguments. -/
theorem finalHid (c : Dev nD) : (dats m 0 c).arrAt 5 cfg0.N = hidG m c :=
  (dats m 0 c).arrAt_eq_of_cover 5 (hidG m c) (fun t _ => flushedHid_eq m c t) coverHid

theorem finalCell (c : Dev nD) : (dats m 0 c).arrAt 6 cfg0.N = cellG m c :=
  (dats m 0 c).arrAt_eq_of_cover 6 (cellG m c) (fun t _ => flushedCell_eq m c t) coverCell

/-! ## The run, read -/

/-- Every weakly fair execution of the program terminates with the hidden result at `hidG`, the cell result at
    `cellG`, and the eleven arguments as launched. -/
theorem run : θ_run defs (onTc (τ := τ) (main (F := Ideal))) ⟨m, fun _ => 0, ρ⟩ fun r => ∀ c : Dev nD,
      r.2.mem ((c.tc : Thread nD τ).loc main_v6_0) = hidG m c
      ∧ r.2.mem ((c.tc : Thread nD τ).loc main_v6_0) = hidG m c
      ∧ r.2.mem ((c.tc : Thread nD τ).loc main_v6_1) = cellG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (finalHid m c), ((h c).1 5).trans (finalHid m c), ((h c).1 6).trans (finalCell m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.CellArrays

end
-- ==== Proof.RefCell.lean ====
/-
  The reference's two results, read entry by entry, are the LSTM cell step of `LstmSpec`: its new cell array is
  `LstmSpec.cellArr` and its new hidden array `LstmSpec.hiddenArr` of x, h, c, the four weight matrices laid side by
  side and the four biases end to end.
-/
import proofs.«140589_j14027363189407_1_alg».proof.Proof.Gen.ReferenceIdeal.Read
import proofs.«140589_j14027363189407_1_alg».proof.Proof.LstmSpec
import Idealize.ShloMosaic.Lib.IdealHost

noncomputable section

open scoped BigOperators

namespace Cert.ReferenceIdeal.RefCell

open Cert.ReferenceIdeal Cert.ReferenceIdeal.Gen Cert.ReferenceIdeal.Read Idealize.ShloMosaic Idealize.ShloMosaic.TcCoe Idealize.ShloMosaic.ValueIdx Cert.LstmSpec

/-! ## The joined row

The reference lays x and h side by side into a [4096, 2048] array; its entry (r, k) is entry k of row r of x
followed by row r of h. -/

/-- Entry (r, k) of x and h side by side is entry k of the joined row r. -/
private theorem joined_apply (x h : FVec Ideal S4096x1024 .f32) (r : Fin 4096) (k : Fin 2048) :
    val_main_v0 (F := Ideal) x h (ix2 r k) = joinRow (fun a => x (ix2 r a)) (fun a => h (ix2 r a)) k := by
  unfold val_main_v0 joinRow
  by_cases hk : k.val < 1024
  · -- a column below 1024 falls in x, at the same column
    rw [dif_pos hk]
    exact concatenate_pair_apply_left 1 x h concatenates_S4096x1024_S4096x1024_S4096x2048_d1 (ix2 r k) rfl
      (ix2 r (⟨k.val, hk⟩ : Fin 1024)) (fun b => by
        match b with
        | ⟨0, _⟩ => rfl
        | ⟨1, _⟩ => rfl)
  · -- a column from 1024 on falls in h, 1024 columns to the left
    rw [dif_neg hk]
    exact concatenate_pair_apply_right 1 x h concatenates_S4096x1024_S4096x1024_S4096x2048_d1 (ix2 r k) rfl rfl
      (ix2 r (⟨k.val - 1024, by have := k.isLt; omega⟩ : Fin 1024))
      (fun b hb => by
        match b with
        | ⟨0, _⟩ => rfl
        | ⟨1, _⟩ => exact absurd rfl hb)
      (by show k.val - 1024 + 1024 = k.val; omega)

/-! ## The gate pre-activations

Entry (r, n) of the product plus the broadcast bias is gate n of row r. -/

/-- The left operand of the product is read at (r, k). -/
private theorem lidx_eq (r : Fin 4096) (n : Fin 4096) (k : Fin 2048) :
    lidx_main_v3 (ix2 r n) k = ix2 r k :=
  funext fun a => Fin.ext (by match a with | ⟨0, _⟩ => rfl | ⟨1, _⟩ => rfl)

/-- The right operand of the product is read at (k, n). -/
private theorem ridx_eq (r : Fin 4096) (n : Fin 4096) (k : Fin 2048) :
    ridx_main_v3 (ix2 r n) k = ix2 k n :=
  funext fun a => Fin.ext (by match a with | ⟨0, _⟩ => rfl | ⟨1, _⟩ => rfl)

/-- The bias, broadcast along the rows, is read at n. -/
private theorem bidx_eq (r : Fin 4096) (n : Fin 4096) :
    idx_main_v4 (idx_main_v5 (ix2 r n)) = ix1 n :=
  funext fun a => Fin.ext (by match a with | ⟨0, _⟩ => rfl)

/-- Entry (r, n) of the pre-activation array is gate n of row r. -/
private theorem preact_apply (x h : FVec Ideal S4096x1024 .f32) (w3 : FVec Ideal S2048x1024 .f32) (b4 : FVec Ideal S1024 .f32)
    (w5 : FVec Ideal S2048x1024 .f32) (b6 : FVec Ideal S1024 .f32) (w7 : FVec Ideal S2048x1024 .f32) (b8 : FVec Ideal S1024 .f32)
    (w9 : FVec Ideal S2048x1024 .f32) (b10 : FVec Ideal S1024 .f32)
    (r : Fin 4096) (n : Fin 4096) :
    val_main_v6 (F := Ideal) x h w3 b4 w5 b6 w7 b8 w9 b10 (ix2 r n)
      = gate (joinRow (fun a => x (ix2 r a)) (fun a => h (ix2 r a)))
          (fun k m => val_main_v1 (F := Ideal) w3 w5 w7 w9 (ix2 k m))
          (fun m => val_main_v2 (F := Ideal) b4 b6 b8 b10 (ix1 m)) n := by
  rw [val_main_v6_apply, val_main_v3_apply, val_main_v5_apply, val_main_v4_apply, bidx_eq]
  unfold gate
  simp only [lidx_eq, ridx_eq, joined_apply, Ideal.addf_def]

/-! ## The four slices

Each slice of the pre-activation array reads it 0, 1024, 2048 or 3072 columns to the right. -/

private theorem idx7_eq (r : Fin 4096) (j : Fin 1024) :
    idx_main_v7 (ix2 r j) = ix2 r (⟨j.val, by have := j.isLt; omega⟩ : Fin 4096) :=
  funext fun a => Fin.ext (by match a with | ⟨0, _⟩ => rfl | ⟨1, _⟩ => rfl)

private theorem idx8_eq (r : Fin 4096) (j : Fin 1024) :
    idx_main_v8 (ix2 r j) = ix2 r (⟨1024 + j.val, by have := j.isLt; omega⟩ : Fin 4096) :=
  funext fun a => Fin.ext (by match a with | ⟨0, _⟩ => rfl | ⟨1, _⟩ => rfl)

private theorem idx9_eq (r : Fin 4096) (j : Fin 1024) :
    idx_main_v9 (ix2 r j) = ix2 r (⟨2048 + j.val, by have := j.isLt; omega⟩ : Fin 4096) :=
  funext fun a => Fin.ext (by match a with | ⟨0, _⟩ => rfl | ⟨1, _⟩ => rfl)

private theorem idx10_eq (r : Fin 4096) (j : Fin 1024) :
    idx_main_v10 (ix2 r j) = ix2 r (⟨3072 + j.val, by have := j.isLt; omega⟩ : Fin 4096) :=
  funext fun a => Fin.ext (by match a with | ⟨0, _⟩ => rfl | ⟨1, _⟩ => rfl)

theorem ref_cell (x h c : FVec Ideal S4096x1024 .f32) (w3 : FVec Ideal S2048x1024 .f32) (b4 : FVec Ideal S1024 .f32)
    (w5 : FVec Ideal S2048x1024 .f32) (b6 : FVec Ideal S1024 .f32) (w7 : FVec Ideal S2048x1024 .f32) (b8 : FVec Ideal S1024 .f32)
    (w9 : FVec Ideal S2048x1024 .f32) (b10 : FVec Ideal S1024 .f32) :
    val_main_v32 (F := Ideal) x h c w3 b4 w5 b6 w7 b8 w9 b10
      = cellArr x h c (val_main_v1 (F := Ideal) w3 w5 w7 w9) (val_main_v2 (F := Ideal) b4 b6 b8 b10) := by
  funext i
  obtain ⟨r, j, rfl⟩ : ∃ (r : Fin 4096) (j : Fin 1024), i = ix2 r j := ⟨i 0, i 1, eq_ix2 i⟩
  rw [val_main_v32_apply, val_main_v30_apply, val_main_v31_apply, val_main_v16_apply, val_main_v22_apply,
    val_main_v23_apply, val_main_v15_apply, val_main_v21_apply, val_main_v14_apply, val_main_v20_apply,
    val_main_v13_apply, val_main_v19_apply, val_main_v12_apply, val_main_v18_apply, val_main_v11_apply,
    val_main_v17_apply, val_main_v7_apply, val_main_v8_apply, val_main_v9_apply,
    val_main_cst_apply, val_main_cst_0_apply, val_main_cst_1_apply, val_main_cst_2_apply,
    idx7_eq, idx8_eq, idx9_eq, preact_apply, preact_apply, preact_apply]
  -- the right side at (r, j) is the cell of row r at position j
  show _ = cell (joinRow (fun a => x (ix2 r a)) (fun a => h (ix2 r a)))
      (fun k m => val_main_v1 (F := Ideal) w3 w5 w7 w9 (ix2 k m))
      (fun m => val_main_v2 (F := Ideal) b4 b6 b8 b10 (ix1 m)) (fun a => c (ix2 r a)) j
  unfold cell
  -- 1 / (1 + e^(-g)) is the logistic function of g, and the word 0x3F800000 is one
  simp only [Ideal.addf_def, Ideal.mulf_def, Ideal.hostDivf_def, Ideal.hostUnary_exp_def, Ideal.hostUnary_tanh_def,
    Ideal.hostNegf_def, Ideal.negf_def, Ideal.ofBits_def, Ideal.ofBits_one_f32, Ideal.logistic]

theorem ref_hidden (x h c : FVec Ideal S4096x1024 .f32) (w3 : FVec Ideal S2048x1024 .f32) (b4 : FVec Ideal S1024 .f32)
    (w5 : FVec Ideal S2048x1024 .f32) (b6 : FVec Ideal S1024 .f32) (w7 : FVec Ideal S2048x1024 .f32) (b8 : FVec Ideal S1024 .f32)
    (w9 : FVec Ideal S2048x1024 .f32) (b10 : FVec Ideal S1024 .f32) :
    val_main_v34 (F := Ideal) x h c w3 b4 w5 b6 w7 b8 w9 b10
      = hiddenArr x h c (val_main_v1 (F := Ideal) w3 w5 w7 w9) (val_main_v2 (F := Ideal) b4 b6 b8 b10) := by
  funext i
  obtain ⟨r, j, rfl⟩ : ∃ (r : Fin 4096) (j : Fin 1024), i = ix2 r j := ⟨i 0, i 1, eq_ix2 i⟩
  -- the new hidden entry is the output gate times tanh of the new cell entry, which is the cell of row r
  rw [val_main_v34_apply, val_main_v33_apply, ref_cell, val_main_v29_apply, val_main_v28_apply, val_main_v27_apply,
    val_main_v26_apply, val_main_v25_apply, val_main_v24_apply, val_main_v10_apply,
    val_main_cst_3_apply, val_main_cst_4_apply, idx10_eq, preact_apply]
  have hcell : cellArr x h c (val_main_v1 (F := Ideal) w3 w5 w7 w9) (val_main_v2 (F := Ideal) b4 b6 b8 b10) (ix2 r j)
      = cell (joinRow (fun a => x (ix2 r a)) (fun a => h (ix2 r a)))
          (fun k m => val_main_v1 (F := Ideal) w3 w5 w7 w9 (ix2 k m))
          (fun m => val_main_v2 (F := Ideal) b4 b6 b8 b10 (ix1 m)) (fun a => c (ix2 r a)) j := rfl
  rw [hcell]
  show _ = LstmSpec.hidden (joinRow (fun a => x (ix2 r a)) (fun a => h (ix2 r a)))
      (fun k m => val_main_v1 (F := Ideal) w3 w5 w7 w9 (ix2 k m))
      (fun m => val_main_v2 (F := Ideal) b4 b6 b8 b10 (ix1 m)) (fun a => c (ix2 r a)) j
  unfold LstmSpec.hidden
  -- 1 / (1 + e^(-g)) is the logistic function of g, and the word 0x3F800000 is one
  simp only [Ideal.addf_def, Ideal.mulf_def, Ideal.hostDivf_def, Ideal.hostUnary_exp_def, Ideal.hostUnary_tanh_def,
    Ideal.hostNegf_def, Ideal.negf_def, Ideal.ofBits_def, Ideal.ofBits_one_f32, Ideal.logistic]

end Cert.ReferenceIdeal.RefCell

end
-- ==== Proof.lean ====
/-
  An LSTM cell step as one Pallas kernel — sixteen grid steps of 256 batch rows, each one matrix product of the
  joined rows [x | h] with the four gate weight matrices laid side by side, plus the biases, then the gates — against
  the same step written with jnp over the whole batch.

  Over the extended reals the two programs compute one function (`LstmSpec`): narrowing the matrix unit's operands to
  bf16 is the identity there; the kernel's logistic is 1 / (1 + e^(−x)), which is how the reference spells its
  sigmoid; tanh is one function; a matrix product into a zero accumulator and the host's dot_general are the same sum
  over the 2048 joined columns; and every batch row depends on that row of x, h and c only, so walking the batch 256
  rows at a time changes nothing. No law of arithmetic that fails at the infinities is used, so the inputs' finiteness
  is never opened.

  Each program also runs to its end without a fault and leaves its eleven argument arrays as launched: the kernel
  programs by the pipeline's run (`CellRun`), the reference by its run read back. The idealization rewrote nothing, so
  there is nothing to preserve.
-/
import proofs.«140589_j14027363189407_1_alg».proof.Defs
import proofs.«140589_j14027363189407_1_alg».proof.Proof.Gen.Kernel
import proofs.«140589_j14027363189407_1_alg».proof.Proof.Gen.KernelIdeal
import proofs.«140589_j14027363189407_1_alg».proof.Proof.Gen.ReferenceIdeal
import proofs.«140589_j14027363189407_1_alg».proof.Proof.Gen.Pre_finite_inputs
import proofs.«140589_j14027363189407_1_alg».proof.Proof.Gen.ReferenceIdeal.Run
import proofs.«140589_j14027363189407_1_alg».proof.Proof.Gen.ReferenceIdeal.Read
import proofs.«140589_j14027363189407_1_alg».proof.Proof.KernelCellRun
import proofs.«140589_j14027363189407_1_alg».proof.Proof.KernelIdealCellRun
import proofs.«140589_j14027363189407_1_alg».proof.Proof.KernelIdealArrays
import proofs.«140589_j14027363189407_1_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.CellRun.frame m ρ

theorem frame_kernelIdeal : Cert.frame_KernelIdeal := fun m ρ _ => Cert.KernelIdeal.CellRun.frame m ρ

/-- The reference's run with its three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the new hidden array (returned twice) and the new cell array of `LstmSpec`, of argument
    arrays that agree. -/
theorem algebraic : Cert.algebraic_KernelIdeal_ReferenceIdeal := by
  intro m ρ m' ρ' _ hagree
  refine ⟨fun c => Cert.KernelIdeal.CellArrays.hidG m c, fun c => Cert.KernelIdeal.CellArrays.hidG m c,
    fun c => Cert.KernelIdeal.CellArrays.cellG m c, Cert.KernelIdeal.CellArrays.run m ρ, ?_⟩
  refine (θ_run Cert.ReferenceIdeal.defs _ _).mono (fun _ h c => ?_) (Cert.ReferenceIdeal.Value.run (F := Ideal) m' ρ')
  obtain ⟨h0, h1, h2, hrest⟩ := h c
  obtain ⟨a0, a1, a2, a3, a4, a5, a6, a7, a8, a9, a10⟩ := hagree c
  have eh : Cert.ReferenceIdeal.Value.res_main_v34 m' c = Cert.KernelIdeal.CellArrays.hidG m c := by
    rw [Cert.ReferenceIdeal.Read.val_main_v34_eq, Cert.ReferenceIdeal.RefCell.ref_hidden, a0, a1, a2, a3, a4, a5, a6, a7, a8, a9, a10]
    rfl
  refine ⟨h0.trans eh, h1.trans eh, h2.trans ?_, hrest⟩
  rw [Cert.ReferenceIdeal.Read.val_main_v32_eq, Cert.ReferenceIdeal.RefCell.ref_cell, a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
